-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S8193 : Shape := ⟨1, ![8193]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel

variable [Facts]

def fn_part2 {F : FTy → Type} [FloatOps F] (main_arg23 : FVec F S2097152 .f32) (main_v33 : IVec S_ 1) : IVec S_ 1 :=
  let main_v34 : FVec F S2097152 .f32 := Host.absf main_arg23
  let main_cst_12 : FVec F S_ .f32 := constant S_ .f32 0x7F800000#32
  let main_v35 : FVec F S2097152 .f32 := broadcastInDim S2097152 ![] bcast_S_S2097152 main_cst_12
  let main_v36 : IVec S2097152 1 := cmpf .olt main_v34 main_v35
  let main_c_13 : IVec S_ 1 := constantI S_ 1 1#1
  let main_v37 : IVec S_ 1 := (fun x v => Host.reduce IntOp.andi x v reducesTo_S2097152_S_d0 h_S_) main_v36 main_c_13
  let main_v38 : IVec S_ 1 := andi main_v33 main_v37
  main_v38

def fn_part1 {F : FTy → Type} [FloatOps F] (main_arg20 : FVec F S2097152 .f32) (main_arg21 : FVec F S2097152 .f32) (main_arg22 : FVec F S2097152 .f32) (main_arg23 : FVec F S2097152 .f32) (main_v13 : IVec S_ 1) (main_v16 : IVec S2097152 1) : IVec S_ 1 :=
  let main_c_5 : IVec S_ 1 := constantI S_ 1 1#1
  let main_v17 : IVec S_ 1 := (fun x v => Host.reduce IntOp.andi x v reducesTo_S2097152_S_d0 h_S_) main_v16 main_c_5
  let main_v18 : IVec S_ 1 := andi main_v13 main_v17
  let main_v19 : FVec F S2097152 .f32 := Host.absf main_arg20
  let main_cst_6 : FVec F S_ .f32 := constant S_ .f32 0x7F800000#32
  let main_v20 : FVec F S2097152 .f32 := broadcastInDim S2097152 ![] bcast_S_S2097152 main_cst_6
  let main_v21 : IVec S2097152 1 := cmpf .olt main_v19 main_v20
  let main_c_7 : IVec S_ 1 := constantI S_ 1 1#1
  let main_v22 : IVec S_ 1 := (fun x v => Host.reduce IntOp.andi x v reducesTo_S2097152_S_d0 h_S_) main_v21 main_c_7
  let main_v23 : IVec S_ 1 := andi main_v18 main_v22
  let main_v24 : FVec F S2097152 .f32 := Host.absf main_arg21
  let main_cst_8 : FVec F S_ .f32 := constant S_ .f32 0x7F800000#32
  let main_v25 : FVec F S2097152 .f32 := broadcastInDim S2097152 ![] bcast_S_S2097152 main_cst_8
  let main_v26 : IVec S2097152 1 := cmpf .olt main_v24 main_v25
  let main_c_9 : IVec S_ 1 := constantI S_ 1 1#1
  let main_v27 : IVec S_ 1 := (fun x v => Host.reduce IntOp.andi x v reducesTo_S2097152_S_d0 h_S_) main_v26 main_c_9
  let main_v28 : IVec S_ 1 := andi main_v23 main_v27
  let main_v29 : FVec F S2097152 .f32 := Host.absf main_arg22
  let main_cst_10 : FVec F S_ .f32 := constant S_ .f32 0x7F800000#32
  let main_v30 : FVec F S2097152 .f32 := broadcastInDim S2097152 ![] bcast_S_S2097152 main_cst_10
  let main_v31 : IVec S2097152 1 := cmpf .olt main_v29 main_v30
  let main_c_11 : IVec S_ 1 := constantI S_ 1 1#1
  let main_v32 : IVec S_ 1 := (fun x v => Host.reduce IntOp.andi x v reducesTo_S2097152_S_d0 h_S_) main_v31 main_c_11
  let main_v33 : IVec S_ 1 := andi main_v28 main_v32
  fn_part2 (F := F) main_arg23 main_v33

def fn {F : FTy → Type} [FloatOps F] (main_arg0 : IVec S2097152 32) (main_arg1 : IVec S2097152 32) (main_arg2 : IVec S2097152 32) (main_arg3 : IVec S2097152 32) (main_arg4 : IVec S2097152 32) (main_arg5 : IVec S2097152 32) (main_arg6 : IVec S2097152 32) (main_arg7 : IVec S2097152 32) (main_arg8 : IVec S8193 32) (main_arg9 : IVec S8193 32) (main_arg10 : IVec S8193 32) (main_arg11 : IVec S8193 32) (main_arg12 : IVec S8193 32) (main_arg13 : IVec S8193 32) (main_arg14 : IVec S8193 32) (main_arg15 : IVec S8193 32) (main_arg16 : FVec F S2097152 .f32) (main_arg17 : FVec F S2097152 .f32) (main_arg18 : FVec F S2097152 .f32) (main_arg19 : FVec F S2097152 .f32) (main_arg20 : FVec F S2097152 .f32) (main_arg21 : FVec F S2097152 .f32) (main_arg22 : FVec F S2097152 .f32) (main_arg23 : FVec F S2097152 .f32) : IVec S_ 1 :=
  let main_v0 : FVec F S2097152 .f32 := Host.absf main_arg16
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S2097152 .f32 := Host.absf main_arg17
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S2097152 .f32 := Host.absf main_arg18
  let main_cst_2 : FVec F S_ .f32 := constant S_ .f32 0x7F800000#32
  let main_v10 : FVec F S2097152 .f32 := broadcastInDim S2097152 ![] bcast_S_S2097152 main_cst_2
  let main_v11 : IVec S2097152 1 := cmpf .olt main_v9 main_v10
  let main_c_3 : IVec S_ 1 := constantI S_ 1 1#1
  let main_v12 : IVec S_ 1 := (fun x v => Host.reduce IntOp.andi x v reducesTo_S2097152_S_d0 h_S_) main_v11 main_c_3
  let main_v13 : IVec S_ 1 := andi main_v8 main_v12
  let main_v14 : FVec F S2097152 .f32 := Host.absf main_arg19
  let main_cst_4 : FVec F S_ .f32 := constant S_ .f32 0x7F800000#32
  let main_v15 : FVec F S2097152 .f32 := broadcastInDim S2097152 ![] bcast_S_S2097152 main_cst_4
  let main_v16 : IVec S2097152 1 := cmpf .olt main_v14 main_v15
  fn_part1 (F := F) main_arg20 main_arg21 main_arg22 main_arg23 main_v13 main_v16
-- ==== Kernel.lean ====
abbrev S2097152 : Shape := ⟨1, ![2097152]⟩
abbrev S8193 : Shape := ⟨1, ![8193]⟩
abbrev S1 : Shape := ⟨1, ![1]⟩
abbrev S16777216 : Shape := ⟨1, ![16777216]⟩
abbrev S262144 : Shape := ⟨1, ![262144]⟩
abbrev S8192 : Shape := ⟨1, ![8192]⟩
abbrev S_ : Shape := ⟨0, ![]⟩
abbrev S65537 : Shape := ⟨1, ![65537]⟩

abbrev nBuf : Space → Nat
  | .hbm => 60
  | .vmem => 36
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .i32⟩
  | .hbm, ⟨4, _⟩ => ⟨S2097152, .i32⟩
  | .hbm, ⟨5, _⟩ => ⟨S2097152, .i32⟩
  | .hbm, ⟨6, _⟩ => ⟨S2097152, .i32⟩
  | .hbm, ⟨7, _⟩ => ⟨S2097152, .i32⟩
  | .hbm, ⟨8, _⟩ => ⟨S8193, .i32⟩
  | .hbm, ⟨9, _⟩ => ⟨S8193, .i32⟩
  | .hbm, ⟨10, _⟩ => ⟨S8193, .i32⟩
  | .hbm, ⟨11, _⟩ => ⟨S8193, .i32⟩
  | .hbm, ⟨12, _⟩ => ⟨S8193, .i32⟩
  | .hbm, ⟨13, _⟩ => ⟨S8193, .i32⟩
  | .hbm, ⟨14, _⟩ => ⟨S8193, .i32⟩
  | .hbm, ⟨15, _⟩ => ⟨S8193, .i32⟩
  | .hbm, ⟨16, _⟩ => ⟨S2097152, .f32⟩
  | .hbm, ⟨17, _⟩ => ⟨S2097152, .f32⟩
  | .hbm, ⟨18, _⟩ => ⟨S2097152, .f32⟩
  | .hbm, ⟨19, _⟩ => ⟨S2097152, .f32⟩
  | .hbm, ⟨20, _⟩ => ⟨S2097152, .f32⟩
  | .hbm, ⟨21, _⟩ => ⟨S2097152, .f32⟩
  | .hbm, ⟨22, _⟩ => ⟨S2097152, .f32⟩
  | .hbm, ⟨23, _⟩ => ⟨S2097152, .f32⟩
  | .hbm, ⟨24, _⟩ => ⟨S1, .i32⟩
  | .hbm, ⟨25, _⟩ => ⟨S16777216, .i32⟩
  | .hbm, ⟨26, _⟩ => ⟨S16777216, .f32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S65537, .i32⟩
  | .local _ .vmem, ⟨0, _⟩ => ⟨S262144, .i32⟩
  | .local _ .vmem, ⟨1, _⟩ => ⟨S262144, .i32⟩
  | .local _ .vmem, ⟨2, _⟩ => ⟨S262144, .i32⟩
  | .local _ .vmem, ⟨3, _⟩ => ⟨S262144, .i32⟩
  | .local _ .vmem, ⟨4, _⟩ => ⟨S262144, .i32⟩
  | .local _ .vmem, ⟨5, _⟩ => ⟨S262144, .i32⟩
  | .local _ .vmem, ⟨6, _⟩ => ⟨S262144, .i32⟩
  | .local _ .vmem, ⟨7, _⟩ => ⟨S262144, .i32⟩
  | .local _ .vmem, ⟨8, _⟩ => ⟨S262144, .i32⟩
  | .local _ .vmem, ⟨9, _⟩ => ⟨S262144, .i32⟩
  | .local _ .vmem, ⟨10, _⟩ => ⟨S262144, .i32⟩
  | .local _ .vmem, ⟨11, _⟩ => ⟨S262144, .i32⟩
  | .local _ .vmem, ⟨12, _⟩ => ⟨S262144, .i32⟩
  | .local _ .vmem, ⟨13, _⟩ => ⟨S262144, .i32⟩
  | .local _ .vmem, ⟨14, _⟩ => ⟨S262144, .i32⟩
  | .local _ .vmem, ⟨15, _⟩ => ⟨S262144, .i32⟩
  | .local _ .vmem, ⟨16, _⟩ => ⟨S262144, .i32⟩
  | .local _ .vmem, ⟨17, _⟩ => ⟨S262144, .i32⟩
  | .local _ .vmem, ⟨18, _⟩ => ⟨S262144, .f32⟩
  | .local _ .vmem, ⟨19, _⟩ => ⟨S262144, .f32⟩
  | .local _ .vmem, ⟨20, _⟩ => ⟨S262144, .f32⟩
  | .local _ .vmem, ⟨21, _⟩ => ⟨S262144, .f32⟩
  | .local _ .vmem, ⟨22, _⟩ => ⟨S262144, .f32⟩
  | .local _ .vmem, ⟨23, _⟩ => ⟨S262144, .f32⟩
  | .local _ .vmem, ⟨24, _⟩ => ⟨S262144, .f32⟩
  | .local _ .vmem, ⟨25, _⟩ => ⟨S262144, .f32⟩
  | .local _ .vmem, ⟨26, _⟩ => ⟨S262144, .f32⟩
  | .local _ .vmem, ⟨27, _⟩ => ⟨S262144, .f32⟩
  | .local _ .vmem, ⟨28, _⟩ => ⟨S262144, .f32⟩
  | .local _ .vmem, ⟨29, _⟩ => ⟨S262144, .f32⟩
  | .local _ .vmem, ⟨30, _⟩ => ⟨S262144, .f32⟩
  | .local _ .vmem, ⟨31, _⟩ => ⟨S262144, .f32⟩
  | .local _ .vmem, ⟨32, _⟩ => ⟨S262144, .f32⟩
  | .local _ .vmem, ⟨33, _⟩ => ⟨S262144, .f32⟩
  | .local _ .vmem, ⟨34, _⟩ => ⟨S262144, .f32⟩
  | .local _ .vmem, ⟨35, _⟩ => ⟨S262144, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg0 : BitVec 32 := BitVec.ofNat 32 (i 0).val
  let c5_i32 : BitVec 32 := 5#32
  let v15 : BitVec 1 := Scalar.cmpi .eq arg0 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_7 : BitVec 32 := 0#32
  let v23 : BitVec 1 := Scalar.cmpi .ne v22 c0_i32_7
  v23

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  ![v1.toNat]

def cc0_transform_5 (i : grid0.Coords) : Fin 1 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  ![v1.toNat]

def cc0_transform_6 (i : grid0.Coords) : Fin 1 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  ![v1.toNat]

def cc0_transform_7 (i : grid0.Coords) : Fin 1 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  ![v1.toNat]

def cc0_transform_8 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

abbrev stage0_0 : Fin 2 → Memref sig .tc .vmem S262144 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S262144 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S262144 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S262144 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S262144 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S262144 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S262144 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S262144 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k1_cond3 (i : grid1.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k1_cond4 (i : grid1.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k1_cond5 (i : grid1.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_4 : BitVec 32 := 0#32
  let v14 : BitVec 1 := Scalar.cmpi .ne v13 c0_i32_4
  v14

def k1_cond6 (i : grid1.Coords) : BitVec 1 :=
  let arg0 : BitVec 32 := BitVec.ofNat 32 (i 0).val
  let c5_i32 : BitVec 32 := 5#32
  let v15 : BitVec 1 := Scalar.cmpi .eq arg0 c5_i32
  let v16 : BitVec 32 := Scalar.extui v15
  let c0_i32_5 : BitVec 32 := 0#32
  let v17 : BitVec 1 := Scalar.cmpi .ne v16 c0_i32_5
  v17

def k1_cond7 (i : grid1.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_6 : BitVec 32 := 0#32
  let v20 : BitVec 1 := Scalar.cmpi .ne v19 c0_i32_6
  v20

def k1_cond8 (i : grid1.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_7 : BitVec 32 := 0#32
  let v23 : BitVec 1 := Scalar.cmpi .ne v22 c0_i32_7
  v23

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  ![v1.toNat]

def cc1_transform_1 (i : grid1.Coords) : Fin 1 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  ![v1.toNat]

def cc1_transform_2 (i : grid1.Coords) : Fin 1 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  ![v1.toNat]

def cc1_transform_3 (i : grid1.Coords) : Fin 1 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  ![v1.toNat]

def cc1_transform_4 (i : grid1.Coords) : Fin 1 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  ![v1.toNat]

def cc1_transform_5 (i : grid1.Coords) : Fin 1 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  ![v1.toNat]

def cc1_transform_6 (i : grid1.Coords) : Fin 1 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  ![v1.toNat]

def cc1_transform_7 (i : grid1.Coords) : Fin 1 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  ![v1.toNat]

def cc1_transform_8 (i : grid1.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

abbrev stage1_0 : Fin 2 → Memref sig .tc .vmem S262144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S262144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S262144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S262144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S262144 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S262144 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S262144 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S262144 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S262144 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S262144_S262144_0 : ∀ a, (![0] : Fin 1 → Nat) a + S262144.size a ≤ S262144.size a
  h_S262144 : 0 < S262144.numel
  slices_S8193_S8192_0 : S8193.Slices ![0] S8192
  bcast_S_S8192 : S_.BroadcastsInDim S8192 (![] : Fin 0 → Fin S8192.rank)
  concatenates_S8192_S8192_S8192_S8192_S8192_S8192_S8192_S8192_S1_S65537_d0 : Shape.Concatenates [S8192, S8192, S8192, S8192, S8192, S8192, S8192, S8192, S1] S65537 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S2097152.size a
  hwx0_0 : ∀ i : grid0.Coords, EltTy.bits .i32 = 32 ∨ (Rect.block (s := S2097152) S262144.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S2097152.size a
  hwx0_1 : ∀ i : grid0.Coords, EltTy.bits .i32 = 32 ∨ (Rect.block (s := S2097152) S262144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S2097152.size a
  hwx0_2 : ∀ i : grid0.Coords, EltTy.bits .i32 = 32 ∨ (Rect.block (s := S2097152) S262144.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S262144.size a ≤ S2097152.size a
  hwx0_3 : ∀ i : grid0.Coords, EltTy.bits .i32 = 32 ∨ (Rect.block (s := S2097152) S262144.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144.size a ≤ S2097152.size a
  hwx0_4 : ∀ i : grid0.Coords, EltTy.bits .i32 = 32 ∨ (Rect.block (s := S2097152) S262144.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S262144.size a ≤ S2097152.size a
  hwx0_5 : ∀ i : grid0.Coords, EltTy.bits .i32 = 32 ∨ (Rect.block (s := S2097152) S262144.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S262144.size a ≤ S2097152.size a
  hwx0_6 : ∀ i : grid0.Coords, EltTy.bits .i32 = 32 ∨ (Rect.block (s := S2097152) S262144.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S262144.size a ≤ S2097152.size a
  hwx0_7 : ∀ i : grid0.Coords, EltTy.bits .i32 = 32 ∨ (Rect.block (s := S2097152) S262144.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S262144.size a ≤ S16777216.size a
  hwx0_8 : ∀ i : grid0.Coords, EltTy.bits .i32 = 32 ∨ (Rect.block (s := S16777216) S262144.size (cc0_transform_8 i) (hinb0_8 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S262144.size a ≤ S2097152.size a
  hwx1_0 : ∀ i : grid1.Coords, EltTy.bits .f32 = 32 ∨ (Rect.block (s := S2097152) S262144.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S262144.size a ≤ S2097152.size a
  hwx1_1 : ∀ i : grid1.Coords, EltTy.bits .f32 = 32 ∨ (Rect.block (s := S2097152) S262144.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S262144.size a ≤ S2097152.size a
  hwx1_2 : ∀ i : grid1.Coords, EltTy.bits .f32 = 32 ∨ (Rect.block (s := S2097152) S262144.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S262144.size a ≤ S2097152.size a
  hwx1_3 : ∀ i : grid1.Coords, EltTy.bits .f32 = 32 ∨ (Rect.block (s := S2097152) S262144.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S262144.size a ≤ S2097152.size a
  hwx1_4 : ∀ i : grid1.Coords, EltTy.bits .f32 = 32 ∨ (Rect.block (s := S2097152) S262144.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S262144.size a ≤ S2097152.size a
  hwx1_5 : ∀ i : grid1.Coords, EltTy.bits .f32 = 32 ∨ (Rect.block (s := S2097152) S262144.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S262144.size a ≤ S2097152.size a
  hwx1_6 : ∀ i : grid1.Coords, EltTy.bits .f32 = 32 ∨ (Rect.block (s := S2097152) S262144.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S262144.size a ≤ S2097152.size a
  hwx1_7 : ∀ i : grid1.Coords, EltTy.bits .f32 = 32 ∨ (Rect.block (s := S2097152) S262144.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S262144.size a ≤ S16777216.size a
  hwx1_8 : ∀ i : grid1.Coords, EltTy.bits .f32 = 32 ∨ (Rect.block (s := S16777216) S262144.size (cc1_transform_8 i) (hinb1_8 i)).WholeWords (EltTy.packing .f32)

variable [Facts₀]

abbrev win0_0 : Pipeline.Window sig grid0 :=
  Pipeline.Window.ofSpec (Memref.whole main_arg0) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S262144.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S262144.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S262144.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S262144.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S262144.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S262144.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) && !(k0_cond3 i == 1#1) && !(k0_cond4 i == 1#1) && !(k0_cond5 i == 1#1) && !(k0_cond6 i == 1#1) && !(k0_cond7 i == 1#1) && !(k0_cond8 i == 1#1) | ⟨_ + 9, h⟩ => absurd h (Nat.not_lt.2 (Nat.le_add_left _ _))

abbrev win1_0 : Pipeline.Window sig grid1 :=
  Pipeline.Window.ofSpec (Memref.whole main_arg16) S262144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg17) S262144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S262144.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S262144.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S262144.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg21) S262144.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S262144.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S262144.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1) S262144.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond1 i == 1#1) && !(k1_cond2 i == 1#1) && !(k1_cond3 i == 1#1) && !(k1_cond4 i == 1#1) && !(k1_cond5 i == 1#1) && !(k1_cond6 i == 1#1) && !(k1_cond7 i == 1#1) && !(k1_cond8 i == 1#1) | ⟨_ + 9, h⟩ => absurd h (Nat.not_lt.2 (Nat.le_add_left _ _))

class Facts : Prop extends Facts₀ where

variable [Facts]
-- ==== ReferenceIdeal.lean ====
abbrev S2097152 : Shape := ⟨1, ![2097152]⟩
abbrev S8193 : Shape := ⟨1, ![8193]⟩
abbrev S1 : Shape := ⟨1, ![1]⟩
abbrev S16777216 : Shape := ⟨1, ![16777216]⟩
abbrev S8192 : Shape := ⟨1, ![8192]⟩
abbrev S_ : Shape := ⟨0, ![]⟩
abbrev S65537 : Shape := ⟨1, ![65537]⟩

abbrev nBuf : Space → Nat
  | .hbm => 60
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .i32⟩
  | .hbm, ⟨4, _⟩ => ⟨S2097152, .i32⟩
  | .hbm, ⟨5, _⟩ => ⟨S2097152, .i32⟩
  | .hbm, ⟨6, _⟩ => ⟨S2097152, .i32⟩
  | .hbm, ⟨7, _⟩ => ⟨S2097152, .i32⟩
  | .hbm, ⟨8, _⟩ => ⟨S8193, .i32⟩
  | .hbm, ⟨9, _⟩ => ⟨S8193, .i32⟩
  | .hbm, ⟨10, _⟩ => ⟨S8193, .i32⟩
  | .hbm, ⟨11, _⟩ => ⟨S8193, .i32⟩
  | .hbm, ⟨12, _⟩ => ⟨S8193, .i32⟩
  | .hbm, ⟨13, _⟩ => ⟨S8193, .i32⟩
  | .hbm, ⟨14, _⟩ => ⟨S8193, .i32⟩
  | .hbm, ⟨15, _⟩ => ⟨S8193, .i32⟩
  | .hbm, ⟨16, _⟩ => ⟨S2097152, .f32⟩
  | .hbm, ⟨17, _⟩ => ⟨S2097152, .f32⟩
  | .hbm, ⟨18, _⟩ => ⟨S2097152, .f32⟩
  | .hbm, ⟨19, _⟩ => ⟨S2097152, .f32⟩
  | .hbm, ⟨20, _⟩ => ⟨S2097152, .f32⟩
  | .hbm, ⟨21, _⟩ => ⟨S2097152, .f32⟩
  | .hbm, ⟨22, _⟩ => ⟨S2097152, .f32⟩
  | .hbm, ⟨23, _⟩ => ⟨S2097152, .f32⟩
  | .hbm, ⟨24, _⟩ => ⟨S1, .i32⟩
  | .hbm, ⟨25, _⟩ => ⟨S16777216, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S65537, .i32⟩
  | .hbm, ⟨59, _⟩ => ⟨S16777216, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_4 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_6 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_7 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]

class Facts₀ : Prop where
  concatenates_S2097152_S2097152_S2097152_S2097152_S2097152_S2097152_S2097152_S2097152_S16777216_d0 : Shape.Concatenates [S2097152, S2097152, S2097152, S2097152, S2097152, S2097152, S2097152, S2097152] S16777216 0
  slices_S8193_S8192_0 : S8193.Slices ![0] S8192
  bcast_S_S8192 : S_.BroadcastsInDim S8192 (![] : Fin 0 → Fin S8192.rank)
  concatenates_S8192_S8192_S8192_S8192_S8192_S8192_S8192_S8192_S1_S65537_d0 : Shape.Concatenates [S8192, S8192, S8192, S8192, S8192, S8192, S8192, S8192, S1] S65537 0

variable [Facts₀]

class Facts : Prop extends Facts₀ where

variable [Facts]
-- ==== Proof.KI.Body0.lean ====
/- Region 0 of the idealized kernel program (the pallas_call that concatenates the eight index tables): what its
   body does at a grid point, the proof data of its pipeline, and its body obligation.
   The grid is 8 × 8, point `t` having coordinates `(t / 8, t % 8)`. Input window `k` stages block `t % 8` of
   table `k` while `t / 8 = k` and block 0 otherwise; the output window stages block `t` of the result. The body copies
   the staged block of table `t / 8` to the output's staging buffer, so block `t` of the result is block `t % 8` of
   table `t / 8`: the result is the eight tables laid end to end. -/
import proofs.«412061_j12472585028199_1_alg».proof.Proof.Gen.KernelIdeal.Launch
import proofs.«412061_j12472585028199_1_alg».proof.Proof.Gen.KernelIdeal.Skeleton
import proofs.«412061_j12472585028199_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one offset vector the body's loads and stores use: every whole-block access starts at zero. -/
theorem zero_off0 : (![0] : Fin S262144.rank → Nat) = fun _ => 0 := funext fun a => by
  match a with | ⟨0, _⟩ => rfl

/-! ## The body under each of its eight control cases

The body is eight guarded copies in a row, the `k`-th guarded by "the grid's first coordinate is `k`". Under a
case's hypotheses (one guard holds, seven fail) the symbolic run takes the one branch: a whole-block load of table
`k`'s staging buffer, a dead whole-block load of the output's, and a whole-block store of the loaded value. -/

set_option maxHeartbeats 4000000 in
/-- The body at a grid point whose first coordinate selects table 0: of the eight guarded copies only the one
    under condition 1 runs; it loads table 0's staged block whole and stores it whole over the output's staging
    buffer, whatever that held. Every input buffer is left as found. -/
theorem copy0_of_0 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : k0_cond1 i = 1#1) (c1 : ¬ k0_cond2 i = 1#1) (c2 : ¬ k0_cond3 i = 1#1) (c3 : ¬ k0_cond4 i = 1#1) (c4 : ¬ k0_cond5 i = 1#1) (c5 : ¬ k0_cond6 i = 1#1) (c6 : ¬ k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x0) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 1: of the eight guarded copies only the one
    under condition 2 runs; it loads table 1's staged block whole and stores it whole over the output's staging
    buffer, whatever that held. Every input buffer is left as found. -/
theorem copy0_of_1 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : k0_cond2 i = 1#1) (c2 : ¬ k0_cond3 i = 1#1) (c3 : ¬ k0_cond4 i = 1#1) (c4 : ¬ k0_cond5 i = 1#1) (c5 : ¬ k0_cond6 i = 1#1) (c6 : ¬ k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x1) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 2: of the eight guarded copies only the one
    under condition 3 runs; it loads table 2's staged block whole and stores it whole over the output's staging
    buffer, whatever that held. Every input buffer is left as found. -/
theorem copy0_of_2 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : ¬ k0_cond2 i = 1#1) (c2 : k0_cond3 i = 1#1) (c3 : ¬ k0_cond4 i = 1#1) (c4 : ¬ k0_cond5 i = 1#1) (c5 : ¬ k0_cond6 i = 1#1) (c6 : ¬ k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x2) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 3: of the eight guarded copies only the one
    under condition 4 runs; it loads table 3's staged block whole and stores it whole over the output's staging
    buffer, whatever that held. Every input buffer is left as found. -/
theorem copy0_of_3 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : ¬ k0_cond2 i = 1#1) (c2 : ¬ k0_cond3 i = 1#1) (c3 : k0_cond4 i = 1#1) (c4 : ¬ k0_cond5 i = 1#1) (c5 : ¬ k0_cond6 i = 1#1) (c6 : ¬ k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x3) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 4: of the eight guarded copies only the one
    under condition 5 runs; it loads table 4's staged block whole and stores it whole over the output's staging
    buffer, whatever that held. Every input buffer is left as found. -/
theorem copy0_of_4 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : ¬ k0_cond2 i = 1#1) (c2 : ¬ k0_cond3 i = 1#1) (c3 : ¬ k0_cond4 i = 1#1) (c4 : k0_cond5 i = 1#1) (c5 : ¬ k0_cond6 i = 1#1) (c6 : ¬ k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x4) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 5: of the eight guarded copies only the one
    under condition 6 runs; it loads table 5's staged block whole and stores it whole over the output's staging
    buffer, whatever that held. Every input buffer is left as found. -/
theorem copy0_of_5 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : ¬ k0_cond2 i = 1#1) (c2 : ¬ k0_cond3 i = 1#1) (c3 : ¬ k0_cond4 i = 1#1) (c4 : ¬ k0_cond5 i = 1#1) (c5 : k0_cond6 i = 1#1) (c6 : ¬ k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x5) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 6: of the eight guarded copies only the one
    under condition 7 runs; it loads table 6's staged block whole and stores it whole over the output's staging
    buffer, whatever that held. Every input buffer is left as found. -/
theorem copy0_of_6 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : ¬ k0_cond2 i = 1#1) (c2 : ¬ k0_cond3 i = 1#1) (c3 : ¬ k0_cond4 i = 1#1) (c4 : ¬ k0_cond5 i = 1#1) (c5 : ¬ k0_cond6 i = 1#1) (c6 : k0_cond7 i = 1#1) (c7 : ¬ k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x6) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

set_option maxHeartbeats 4000000 in
/-- The body at a grid point whose first coordinate selects table 7: of the eight guarded copies only the one
    under condition 8 runs; it loads table 7's staged block whole and stores it whole over the output's staging
    buffer, whatever that held. Every input buffer is left as found. -/
theorem copy0_of_7 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (c0 : ¬ k0_cond1 i = 1#1) (c1 : ¬ k0_cond2 i = 1#1) (c2 : ¬ k0_cond3 i = 1#1) (c3 : ¬ k0_cond4 i = 1#1) (c4 : ¬ k0_cond5 i = 1#1) (c5 : ¬ k0_cond6 i = 1#1) (c6 : ¬ k0_cond7 i = 1#1) (c7 : k0_cond8 i = 1#1)
    (x0 x1 x2 x3 x4 x5 x6 x7 : Vec F S262144 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x7) -∗ K ⟨⟩))
      ⊢ wp frame (wpE (defs₀ (F := F)) Variants.none c none) E (cc0__concat_kernel i a0 h0 a1 h1 a2 h2 a3 h3 a4 h4 a5 h5 a6 h6 a7 h7 a8 h8) K := by
  simp only [cc0__concat_kernel_eq_skeleton]; unfold cc0__concat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec (disch := first | exact c0 | exact c1 | exact c2 | exact c3 | exact c4 | exact c5 | exact c6 | exact c7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero zero_off0 inb_S262144_S262144_0 y⟩),
    View.canon_unit_zero zero_off0, View.readAt_eq_ld, View.ld_unit_zero zero_off0]

/-! ## The eight guards as one family, and the copy by selected table -/

/-- The guard of the body's `k`-th copy, as the kernel computes it from the grid point. -/
def guard0 (i : grid0.Coords) : Fin 8 → Prop
  | ⟨0, _⟩ => k0_cond1 i = 1#1
  | ⟨1, _⟩ => k0_cond2 i = 1#1
  | ⟨2, _⟩ => k0_cond3 i = 1#1
  | ⟨3, _⟩ => k0_cond4 i = 1#1
  | ⟨4, _⟩ => k0_cond5 i = 1#1
  | ⟨5, _⟩ => k0_cond6 i = 1#1
  | ⟨6, _⟩ => k0_cond7 i = 1#1
  | ⟨7, _⟩ => k0_cond8 i = 1#1

/-- At a grid point where exactly the guard of table `k` holds, the body copies table `k`'s staged block into the
    output's staging buffer and leaves every input buffer as it found it. -/
theorem copy0 (c : Dev nD) (E : Set ℕ) (i : grid0.Coords) (a0 : Memref sig .tc .vmem S262144 .i32) (h0 : a0.IsWhole) (a1 : Memref sig .tc .vmem S262144 .i32) (h1 : a1.IsWhole) (a2 : Memref sig .tc .vmem S262144 .i32) (h2 : a2.IsWhole) (a3 : Memref sig .tc .vmem S262144 .i32) (h3 : a3.IsWhole) (a4 : Memref sig .tc .vmem S262144 .i32) (h4 : a4.IsWhole) (a5 : Memref sig .tc .vmem S262144 .i32) (h5 : a5.IsWhole) (a6 : Memref sig .tc .vmem S262144 .i32) (h6 : a6.IsWhole) (a7 : Memref sig .tc .vmem S262144 .i32) (h7 : a7.IsWhole) (a8 : Memref sig .tc .vmem S262144 .i32) (h8 : a8.IsWhole)
    (k : Fin 8) (hg : ∀ j : Fin 8, guard0 i j ↔ j = k)
    (x : Fin 8 → Vec F S262144 .i32) (K : PUnit → sProp 𝕄) :
    iprop(owns (c : Thread nD τ) a0 fullShare (x 0) ∗ owns (c : Thread nD τ) a1 fullShare (x 1) ∗ owns (c : Thread nD τ) a2 fullShare (x 2) ∗ owns (c : Thread nD τ) a3 fullShare (x 3) ∗ owns (c : Thread nD τ) a4 fullShare (x 4) ∗ owns (c : Thread nD τ) a5 fullShare (x 5) ∗ owns (c : Thread nD τ) a6 fullShare (x 6) ∗ owns (c : Thread nD τ) a7 fullShare (x 7) ∗ (∃ d, owns (c : Thread nD τ) a8 fullShare d)
        ∗ (iprop(owns (c : Thread nD τ) a0 fullShare (x 0) ∗ owns (c : Thread nD τ) a1 fullShare (x 1) ∗ owns (c : Thread nD τ) a2 fullShare (x 2) ∗ owns (c : Thread nD τ) a3 fullShare (x 3) ∗ owns (c : Thread nD τ) a4 fullShare (x 4) ∗ owns (c : Thread nD τ) a5 fullShare (x 5) ∗ owns (c : Thread nD τ) a6 fullShare (x 6) ∗ owns (c : Thread nD τ) a7 fullShare (x 7) ∗ owns (c : Thread nD τ) a8 fullShare (x k)) -∗ K ⟨⟩))
      ⊢ wp frame (wpE (defs₀ (F := F)) Variants.none c none) E (cc0__concat_kernel i a0 h0 a1 h1 a2 h2 a3 h3 a4 h4 a5 h5 a6 h6 a7 h7 a8 h8) K :=
  match k, hg with
  | 0, hg => copy0_of_0 c E i a0 h0 a1 h1 a2 h2 a3 h3 a4 h4 a5 h5 a6 h6 a7 h7 a8 h8 ((hg 0).mpr rfl) (fun h => absurd ((hg 1).mp h) (by decide)) (fun h => absurd ((hg 2).mp h) (by decide)) (fun h => absurd ((hg 3).mp h) (by decide)) (fun h => absurd ((hg 4).mp h) (by decide)) (fun h => absurd ((hg 5).mp h) (by decide)) (fun h => absurd ((hg 6).mp h) (by decide)) (fun h => absurd ((hg 7).mp h) (by decide)) (x 0) (x 1) (x 2) (x 3) (x 4) (x 5) (x 6) (x 7) K
  | 1, hg => copy0_of_1 c E i a0 h0 a1 h1 a2 h2 a3 h3 a4 h4 a5 h5 a6 h6 a7 h7 a8 h8 (fun h => absurd ((hg 0).mp h) (by decide)) ((hg 1).mpr rfl) (fun h => absurd ((hg 2).mp h) (by decide)) (fun h => absurd ((hg 3).mp h) (by decide)) (fun h => absurd ((hg 4).mp h) (by decide)) (fun h => absurd ((hg 5).mp h) (by decide)) (fun h => absurd ((hg 6).mp h) (by decide)) (fun h => absurd ((hg 7).mp h) (by decide)) (x 0) (x 1) (x 2) (x 3) (x 4) (x 5) (x 6) (x 7) K
  | 2, hg => copy0_of_2 c E i a0 h0 a1 h1 a2 h2 a3 h3 a4 h4 a5 h5 a6 h6 a7 h7 a8 h8 (fun h => absurd ((hg 0).mp h) (by decide)) (fun h => absurd ((hg 1).mp h) (by decide)) ((hg 2).mpr rfl) (fun h => absurd ((hg 3).mp h) (by decide)) (fun h => absurd ((hg 4).mp h) (by decide)) (fun h => absurd ((hg 5).mp h) (by decide)) (fun h => absurd ((hg 6).mp h) (by decide)) (fun h => absurd ((hg 7).mp h) (by decide)) (x 0) (x 1) (x 2) (x 3) (x 4) (x 5) (x 6) (x 7) K
  | 3, hg => copy0_of_3 c E i a0 h0 a1 h1 a2 h2 a3 h3 a4 h4 a5 h5 a6 h6 a7 h7 a8 h8 (fun h => absurd ((hg 0).mp h) (by decide)) (fun h => absurd ((hg 1).mp h) (by decide)) (fun h => absurd ((hg 2).mp h) (by decide)) ((hg 3).mpr rfl) (fun h => absurd ((hg 4).mp h) (by decide)) (fun h => absurd ((hg 5).mp h) (by decide)) (fun h => absurd ((hg 6).mp h) (by decide)) (fun h => absurd ((hg 7).mp h) (by decide)) (x 0) (x 1) (x 2) (x 3) (x 4) (x 5) (x 6) (x 7) K
  | 4, hg => copy0_of_4 c E i a0 h0 a1 h1 a2 h2 a3 h3 a4 h4 a5 h5 a6 h6 a7 h7 a8 h8 (fun h => absurd ((hg 0).mp h) (by decide)) (fun h => absurd ((hg 1).mp h) (by decide)) (fun h => absurd ((hg 2).mp h) (by decide)) (fun h => absurd ((hg 3).mp h) (by decide)) ((hg 4).mpr rfl) (fun h => absurd ((hg 5).mp h) (by decide)) (fun h => absurd ((hg 6).mp h) (by decide)) (fun h => absurd ((hg 7).mp h) (by decide)) (x 0) (x 1) (x 2) (x 3) (x 4) (x 5) (x 6) (x 7) K
  | 5, hg => copy0_of_5 c E i a0 h0 a1 h1 a2 h2 a3 h3 a4 h4 a5 h5 a6 h6 a7 h7 a8 h8 (fun h => absurd ((hg 0).mp h) (by decide)) (fun h => absurd ((hg 1).mp h) (by decide)) (fun h => absurd ((hg 2).mp h) (by decide)) (fun h => absurd ((hg 3).mp h) (by decide)) (fun h => absurd ((hg 4).mp h) (by decide)) ((hg 5).mpr rfl) (fun h => absurd ((hg 6).mp h) (by decide)) (fun h => absurd ((hg 7).mp h) (by decide)) (x 0) (x 1) (x 2) (x 3) (x 4) (x 5) (x 6) (x 7) K
  | 6, hg => copy0_of_6 c E i a0 h0 a1 h1 a2 h2 a3 h3 a4 h4 a5 h5 a6 h6 a7 h7 a8 h8 (fun h => absurd ((hg 0).mp h) (by decide)) (fun h => absurd ((hg 1).mp h) (by decide)) (fun h => absurd ((hg 2).mp h) (by decide)) (fun h => absurd ((hg 3).mp h) (by decide)) (fun h => absurd ((hg 4).mp h) (by decide)) (fun h => absurd ((hg 5).mp h) (by decide)) ((hg 6).mpr rfl) (fun h => absurd ((hg 7).mp h) (by decide)) (x 0) (x 1) (x 2) (x 3) (x 4) (x 5) (x 6) (x 7) K
  | 7, hg => copy0_of_7 c E i a0 h0 a1 h1 a2 h2 a3 h3 a4 h4 a5 h5 a6 h6 a7 h7 a8 h8 (fun h => absurd ((hg 0).mp h) (by decide)) (fun h => absurd ((hg 1).mp h) (by decide)) (fun h => absurd ((hg 2).mp h) (by decide)) (fun h => absurd ((hg 3).mp h) (by decide)) (fun h => absurd ((hg 4).mp h) (by decide)) (fun h => absurd ((hg 5).mp h) (by decide)) (fun h => absurd ((hg 6).mp h) (by decide)) ((hg 7).mpr rfl) (x 0) (x 1) (x 2) (x 3) (x 4) (x 5) (x 6) (x 7) K
  | ⟨_ + 8, h⟩, _ => absurd h (Nat.not_lt.2 (Nat.le_add_left _ _))

/-! ## Which guard holds where: decided over the 64 grid points -/

/-- The guard of table 0 holds exactly at the points `t` with `t / 8 = 0`. -/
theorem sel0_0 : ∀ t : Fin cfg0.N, k0_cond1 (grid0.coords t) = 1#1 ↔ t.val / 8 = 0 :=
  (by decide +kernel : ∀ t : Fin grid0.N, k0_cond1 (grid0.coords t) = 1#1 ↔ t.val / 8 = 0)
/-- The guard of table 1 holds exactly at the points `t` with `t / 8 = 1`. -/
theorem sel0_1 : ∀ t : Fin cfg0.N, k0_cond2 (grid0.coords t) = 1#1 ↔ t.val / 8 = 1 :=
  (by decide +kernel : ∀ t : Fin grid0.N, k0_cond2 (grid0.coords t) = 1#1 ↔ t.val / 8 = 1)
/-- The guard of table 2 holds exactly at the points `t` with `t / 8 = 2`. -/
theorem sel0_2 : ∀ t : Fin cfg0.N, k0_cond3 (grid0.coords t) = 1#1 ↔ t.val / 8 = 2 :=
  (by decide +kernel : ∀ t : Fin grid0.N, k0_cond3 (grid0.coords t) = 1#1 ↔ t.val / 8 = 2)
/-- The guard of table 3 holds exactly at the points `t` with `t / 8 = 3`. -/
theorem sel0_3 : ∀ t : Fin cfg0.N, k0_cond4 (grid0.coords t) = 1#1 ↔ t.val / 8 = 3 :=
  (by decide +kernel : ∀ t : Fin grid0.N, k0_cond4 (grid0.coords t) = 1#1 ↔ t.val / 8 = 3)
/-- The guard of table 4 holds exactly at the points `t` with `t / 8 = 4`. -/
theorem sel0_4 : ∀ t : Fin cfg0.N, k0_cond5 (grid0.coords t) = 1#1 ↔ t.val / 8 = 4 :=
  (by decide +kernel : ∀ t : Fin grid0.N, k0_cond5 (grid0.coords t) = 1#1 ↔ t.val / 8 = 4)
/-- The guard of table 5 holds exactly at the points `t` with `t / 8 = 5`. -/
theorem sel0_5 : ∀ t : Fin cfg0.N, k0_cond6 (grid0.coords t) = 1#1 ↔ t.val / 8 = 5 :=
  (by decide +kernel : ∀ t : Fin grid0.N, k0_cond6 (grid0.coords t) = 1#1 ↔ t.val / 8 = 5)
/-- The guard of table 6 holds exactly at the points `t` with `t / 8 = 6`. -/
theorem sel0_6 : ∀ t : Fin cfg0.N, k0_cond7 (grid0.coords t) = 1#1 ↔ t.val / 8 = 6 :=
  (by decide +kernel : ∀ t : Fin grid0.N, k0_cond7 (grid0.coords t) = 1#1 ↔ t.val / 8 = 6)
/-- The guard of table 7 holds exactly at the points `t` with `t / 8 = 7`. -/
theorem sel0_7 : ∀ t : Fin cfg0.N, k0_cond8 (grid0.coords t) = 1#1 ↔ t.val / 8 = 7 :=
  (by decide +kernel : ∀ t : Fin grid0.N, k0_cond8 (grid0.coords t) = 1#1 ↔ t.val / 8 = 7)

/-- The guard of table `j` holds exactly on the eight consecutive points `8j … 8j+7`: the grid's first coordinate
    is the point's number divided by eight. -/
theorem guard0_iff (t : Fin cfg0.N) : ∀ j : Fin 8, guard0 (grid0.coords t) j ↔ j.val = t.val / 8
  | 0 => (sel0_0 t).trans eq_comm
  | 1 => (sel0_1 t).trans eq_comm
  | 2 => (sel0_2 t).trans eq_comm
  | 3 => (sel0_3 t).trans eq_comm
  | 4 => (sel0_4 t).trans eq_comm
  | 5 => (sel0_5 t).trans eq_comm
  | 6 => (sel0_6 t).trans eq_comm
  | 7 => (sel0_7 t).trans eq_comm
  | ⟨_ + 8, h⟩ => absurd h (Nat.not_lt.2 (Nat.le_add_left _ _))

/-- So at every point some copy runs: the output window is nowhere idle. -/
theorem live0_8 : ∀ t : Fin cfg0.N, cfg0.idle 8 (cfg0.grid.coords t) = false :=
  (by decide +kernel : ∀ t : Fin grid0.N, idle0 8 (grid0.coords t) = false)

/-! ## The windows' blocks and the proof data, at the contents `V` the region is entered with -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eight tables' blocks at point `t`, as one family of block-shaped vectors. -/
def tab0 (c : Dev nD) (t : Fin cfg0.N) : Fin 8 → Vec F S262144 .i32
  | ⟨0, _⟩ => blk0 V c 0 t
  | ⟨1, _⟩ => blk0 V c 1 t
  | ⟨2, _⟩ => blk0 V c 2 t
  | ⟨3, _⟩ => blk0 V c 3 t
  | ⟨4, _⟩ => blk0 V c 4 t
  | ⟨5, _⟩ => blk0 V c 5 t
  | ⟨6, _⟩ => blk0 V c 6 t
  | ⟨7, _⟩ => blk0 V c 7 t

/-- The table point `t` copies from. -/
def src0 (t : Fin cfg0.N) : Fin 8 := ⟨t.val / 8, Nat.div_lt_of_lt_mul (lt_of_lt_of_eq t.isLt (show cfg0.N = 8 * 8 from N_0))⟩

/-- Input window 0's current staging buffer holds its block at every point, fetched there or not (where it is not
    fetched its block index has not moved), for any proof data over `V` whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Input window 1's current staging buffer holds its block at every point, fetched there or not (where it is not
    fetched its block index has not moved), for any proof data over `V` whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Input window 2's current staging buffer holds its block at every point, fetched there or not (where it is not
    fetched its block index has not moved), for any proof data over `V` whose body leaves the block in place. -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- Input window 3's current staging buffer holds its block at every point, fetched there or not (where it is not
    fetched its block index has not moved), for any proof data over `V` whose body leaves the block in place. -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
/-- Input window 4's current staging buffer holds its block at every point, fetched there or not (where it is not
    fetched its block index has not moved), for any proof data over `V` whose body leaves the block in place. -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
/-- Input window 5's current staging buffer holds its block at every point, fetched there or not (where it is not
    fetched its block index has not moved), for any proof data over `V` whose body leaves the block in place. -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
/-- Input window 6's current staging buffer holds its block at every point, fetched there or not (where it is not
    fetched its block index has not moved), for any proof data over `V` whose body leaves the block in place. -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
/-- Input window 7's current staging buffer holds its block at every point, fetched there or not (where it is not
    fetched its block index has not moved), for any proof data over `V` whose body leaves the block in place. -/
theorem held0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)

/-- The proof data of this pipeline on core `c`: the arrays as the region finds them; after the body at point `t`
    each table's staging buffer still at its block and the output's at the block of the table the point copies from;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => tab0 V c t (src0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = tab0 V c t (src0 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d
theorem held0_2 (c : Dev nD) (t : Fin cfg0.N) (d) : (dat0 V c).before 2 t d = blk0 V c 2 t :=
  held0_2_of V (dat0 V c) (A_eq0 V c 2) (after0_2 V c) t d
theorem held0_3 (c : Dev nD) (t : Fin cfg0.N) (d) : (dat0 V c).before 3 t d = blk0 V c 3 t :=
  held0_3_of V (dat0 V c) (A_eq0 V c 3) (after0_3 V c) t d
theorem held0_4 (c : Dev nD) (t : Fin cfg0.N) (d) : (dat0 V c).before 4 t d = blk0 V c 4 t :=
  held0_4_of V (dat0 V c) (A_eq0 V c 4) (after0_4 V c) t d
theorem held0_5 (c : Dev nD) (t : Fin cfg0.N) (d) : (dat0 V c).before 5 t d = blk0 V c 5 t :=
  held0_5_of V (dat0 V c) (A_eq0 V c 5) (after0_5 V c) t d
theorem held0_6 (c : Dev nD) (t : Fin cfg0.N) (d) : (dat0 V c).before 6 t d = blk0 V c 6 t :=
  held0_6_of V (dat0 V c) (A_eq0 V c 6) (after0_6 V c) t d
theorem held0_7 (c : Dev nD) (t : Fin cfg0.N) (d) : (dat0 V c).before 7 t d = blk0 V c 7 t :=
  held0_7_of V (dat0 V c) (A_eq0 V c 7) (after0_7 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t)

set_option maxHeartbeats 2000000 in
/-- The body at any point: the tables' buffers hold their blocks, the guard that holds is the one of table
    `t / 8`, so the copy by selected table applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  have hlive : (dat0 V c).leavesExact 8 t = owns (c : Thread nD τ) (st0_8 t) fullShare ((dat0 V c).after 8 t) := by
    unfold Dat.leavesExact; rw [live0_8 t]
  unfold bodyPre0 bodyPost0 bodyAt0
  rw [hlive]
  simp only [held0_0, held0_1, held0_2, held0_3, held0_4, held0_5, held0_6, held0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (copy0 c Set.univ (grid0.coords t) _ _ _ _ _ _ _ _ _ _ _ _ _ _ _ _ _ _ (src0 t)
    (fun j => (guard0_iff t j).trans ⟨fun h => Fin.ext h, fun h => congrArg Fin.val h⟩) (tab0 V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Run.lean ====
/- The run of the idealized kernel program: @main is a constant, the two pallas_calls, and the host lines that rebase and
   join the offsets. Between two items the core's unscoped buffers are held whole at a valuation: the launch memory; that
   after the first host line; that with the first call's result array replaced by what its pipeline's write-backs leave;
   the same for the second call; and the last host lines applied to it. Each call is a segment record over its pipeline's
   proof data and body obligation; the launch theorem for a list of segments then gives that every weakly fair execution
   terminates with every unscoped buffer at the last valuation, from which the frame and the results are read. -/
import proofs.«412061_j12472585028199_1_alg».proof.Proof.KI.Body0
import proofs.«412061_j12472585028199_1_alg».proof.Proof.KI.Body1
import proofs.«412061_j12472585028199_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- The TensorCore's buffers when the first call is entered (after the one host line before it). -/
abbrev U1 (c : Dev nD) (b : Ref sig .tc) : Buf (Elt F) ((c : Thread nD τ).loc b) := V1 m c b

/-- What the first call leaves: its arrays at what the pipeline's write-backs leave, every other buffer as entered. -/
def W2 (c : Dev nD) : Valuation τ sig (Elt F) :=
  Pipeline.withArrays spec0 c (V1 m c) fun w => (dat0 (U1 m) c).arrAt w cfg0.N

/-- The same, as the change of the one buffer the call may change: its result array. -/
abbrev X2 (c : Dev nD) : Valuation τ sig (Elt F) := Function.update (V1 m c) main_v0 (W2 m c main_v0)
/-- and read at the TensorCore's references: what the second call is entered with. -/
abbrev U2 (c : Dev nD) (b : Ref sig .tc) : Buf (Elt F) ((c : Thread nD τ).loc b) := X2 m c b

/-- What the second call leaves. -/
def W3 (c : Dev nD) : Valuation τ sig (Elt F) :=
  Pipeline.withArrays spec1 c (X2 m c) fun w => (dat1 (U2 m) c).arrAt w cfg1.N

/-- What the two calls leave in the buffers they may change, in the form the segment list's valuations are written over:
    after item 1 the first call's contents, after item 2 the second's. -/
def outs : Outs (F := F) := fun J r c =>
  match J with
  | 2 => W2 m c r
  | 3 => W3 m c r
  | _ => V1 m c r

/-- The contents after the second call, as the change of its one result array, -/
abbrev X3 (c : Dev nD) : Valuation τ sig (Elt F) := Function.update (X2 m c) main_v1 (W3 m c main_v1)
/-- and read at the TensorCore's references. -/
abbrev U3 (c : Dev nD) (b : Ref sig .tc) : Buf (Elt F) ((c : Thread nD τ).loc b) := X3 m c b

/-- These are the valuations the generated segment list is written over, at `outs`. -/
theorem V2_outs (c : Dev nD) : V2 m (outs m) c = X2 m c := rfl
theorem V3_outs (c : Dev nD) : V3 m (outs m) c = X3 m c := rfl

/-- After the first call its result array holds what the write-backs left. -/
theorem X2_result (c : Dev nD) : X2 m c main_v0 = (dat0 (U1 m) c).arrAt 8 cfg0.N := by
  show Function.update (V1 m c) main_v0 (W2 m c main_v0) main_v0 = _
  rw [Function.update_self]
  exact Pipeline.withArrays_arr spec0 launch0.win.arr_inj c _ _ 8

/-- After the second call its result array holds what the write-backs left. -/
theorem U3_result (c : Dev nD) : U3 m c main_v1 = (dat1 (U2 m) c).arrAt 8 cfg1.N := by
  show Function.update (X2 m c) main_v1 (W3 m c main_v1) main_v1 = _
  rw [Function.update_self]
  exact Pipeline.withArrays_arr spec1 launch1.win.arr_inj c _ _ 8

/-- At the first call's exit each of its arrays holds what its pipeline leaves: a table what it held (an input array is
    never written), the result the write-backs. -/
theorem exit0_arr (c : Dev nD) : ∀ w : Fin cfg0.W, (dat0 (U1 m) c).arrAt w cfg0.N = U2 m c (Pipeline.arrRef spec0 w)
  | 0 => ((dat0 (U1 m) c).arrAt_in 0 rfl _).trans ((A_eq0 (U1 m) c 0).trans (V2_of m (outs m) c main_arg0 (by decide)).symm)
  | 1 => ((dat0 (U1 m) c).arrAt_in 1 rfl _).trans ((A_eq0 (U1 m) c 1).trans (V2_of m (outs m) c main_arg1 (by decide)).symm)
  | 2 => ((dat0 (U1 m) c).arrAt_in 2 rfl _).trans ((A_eq0 (U1 m) c 2).trans (V2_of m (outs m) c main_arg2 (by decide)).symm)
  | 3 => ((dat0 (U1 m) c).arrAt_in 3 rfl _).trans ((A_eq0 (U1 m) c 3).trans (V2_of m (outs m) c main_arg3 (by decide)).symm)
  | 4 => ((dat0 (U1 m) c).arrAt_in 4 rfl _).trans ((A_eq0 (U1 m) c 4).trans (V2_of m (outs m) c main_arg4 (by decide)).symm)
  | 5 => ((dat0 (U1 m) c).arrAt_in 5 rfl _).trans ((A_eq0 (U1 m) c 5).trans (V2_of m (outs m) c main_arg5 (by decide)).symm)
  | 6 => ((dat0 (U1 m) c).arrAt_in 6 rfl _).trans ((A_eq0 (U1 m) c 6).trans (V2_of m (outs m) c main_arg6 (by decide)).symm)
  | 7 => ((dat0 (U1 m) c).arrAt_in 7 rfl _).trans ((A_eq0 (U1 m) c 7).trans (V2_of m (outs m) c main_arg7 (by decide)).symm)
  | 8 => (X2_result m c).symm
  | ⟨_ + 9, h⟩ => absurd h (Nat.not_lt.2 (Nat.le_add_left _ _))

/-- and every buffer that is none of its arrays holds what it held. -/
theorem exit0_rest (c : Dev nD) : ∀ b, b ∉ Finset.univ.image (Pipeline.arrRef spec0) → U2 m c b = U1 m c b :=
  fun b hb => V2_of m (outs m) c b fun h => hb (Finset.mem_image.mpr ⟨8, Finset.mem_univ _, (List.mem_singleton.mp h).symm⟩)

/-- The same at the second call's exit. -/
theorem exit1_arr (c : Dev nD) : ∀ w : Fin cfg1.W, (dat1 (U2 m) c).arrAt w cfg1.N = U3 m c (Pipeline.arrRef spec1 w)
  | 0 => ((dat1 (U2 m) c).arrAt_in 0 rfl _).trans ((A_eq1 (U2 m) c 0).trans (V3_of m (outs m) c main_arg16 (by decide)).symm)
  | 1 => ((dat1 (U2 m) c).arrAt_in 1 rfl _).trans ((A_eq1 (U2 m) c 1).trans (V3_of m (outs m) c main_arg17 (by decide)).symm)
  | 2 => ((dat1 (U2 m) c).arrAt_in 2 rfl _).trans ((A_eq1 (U2 m) c 2).trans (V3_of m (outs m) c main_arg18 (by decide)).symm)
  | 3 => ((dat1 (U2 m) c).arrAt_in 3 rfl _).trans ((A_eq1 (U2 m) c 3).trans (V3_of m (outs m) c main_arg19 (by decide)).symm)
  | 4 => ((dat1 (U2 m) c).arrAt_in 4 rfl _).trans ((A_eq1 (U2 m) c 4).trans (V3_of m (outs m) c main_arg20 (by decide)).symm)
  | 5 => ((dat1 (U2 m) c).arrAt_in 5 rfl _).trans ((A_eq1 (U2 m) c 5).trans (V3_of m (outs m) c main_arg21 (by decide)).symm)
  | 6 => ((dat1 (U2 m) c).arrAt_in 6 rfl _).trans ((A_eq1 (U2 m) c 6).trans (V3_of m (outs m) c main_arg22 (by decide)).symm)
  | 7 => ((dat1 (U2 m) c).arrAt_in 7 rfl _).trans ((A_eq1 (U2 m) c 7).trans (V3_of m (outs m) c main_arg23 (by decide)).symm)
  | 8 => (U3_result m c).symm
  | ⟨_ + 9, h⟩ => absurd h (Nat.not_lt.2 (Nat.le_add_left _ _))

theorem exit1_rest (c : Dev nD) : ∀ b, b ∉ Finset.univ.image (Pipeline.arrRef spec1) → U3 m c b = U2 m c b :=
  fun b hb => V3_of m (outs m) c b fun h => hb (Finset.mem_image.mpr ⟨8, Finset.mem_univ _, (List.mem_singleton.mp h).symm⟩)

/-! ## The proof data of both pipelines, and what rides beside the buffers -/

/-- Every pipeline's proof data, each at its call's entry contents: a literal match on the pipeline. -/
def pdats : (p : Fin 2) → (c : Dev nD) → Dat τ (Elt F) Unit ℕ (UR sig nD τ) ℕ (cfgs p) c
  | ⟨0, _⟩ => fun c => dat0 (U1 m) c
  | ⟨1, _⟩ => fun c => dat1 (U2 m) c

/-- No core owes another anything: no level is assigned. -/
abbrev L : GSem nD τ sig → Finset Unit := fun _ => ∅
abbrev lv : GSem nD τ sig → Unit → ℕ := fun _ _ => 0

/-- What rides beside the buffers through every item: the core's generator register at some state, and its dues, at
    nothing. -/
abbrev Rr (c : Dev nD) : sProp 𝕄 := iprop((∃ r, prngReg c r) ∗ ∃ W, owes (c : Thread nD τ) (0 : CellTallies nD τ sig Unit) W)

/-! ## The two calls as segments -/

-- the library's lemmas are stated over the pinned configuration, which unifies with the printed one only when
-- unification may unfold plain definitions in a metavariable's type
set_option backward.isDefEq.respectTransparency.types false in
/-- Region 0 as a segment of the program: entered with every unscoped buffer of the core held at the contents before
    it, left with them held at the contents after it. Its nine arrays are split out of the unscoped buffers at entry and
    put back at exit, the output's at what the write-backs left; the generator register goes into the pipeline's
    invariant and comes back; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (X2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Region 1 as a segment of the program: entered with every unscoped buffer of the core held at the contents before
    it, left with them held at the contents after it. Its nine arrays are split out of the unscoped buffers at entry and
    put back at exit, the output's at what the write-backs left; the generator register goes into the pipeline's
    invariant and comes back; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (X2 m c) ∗ Rr c)
  post c := iprop(StableHlo.held (c : Thread nD τ) (Pipeline.ucRefs τ sig) (X3 m c) ∗ Rr c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 2000000 in
/-- From any memory with zero counters, every weakly fair execution of @main on the TensorCores terminates, nothing
    faulting, and the final memory holds every unscoped buffer of each core at the last valuation. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V4 m (outs m) c b) := by
  refine Pipeline.θ_run_regions_kit_dev (pcfgs (F := F)) adm (pdats m) () cellOf_inj emb₁ defs₀ Variants.none L lv m ρ main
    (segs m (outs m) Variants.none L lv (fun _ c => Rr c) () (pdats m) (reg0 m) (reg1 m))
    (fun c Q => by
      rewrite [main_chain c, Seg.run_eq_chain,
        show (segs m (outs m) Variants.none L lv (fun _ c => Rr c) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj)) ?hu
    (T₀ := fun c => iprop(StableHlo.held (c : Thread nD τ) (Pipeline.ucRefs τ sig) (V0 m c) ∗ Rr c))
    (Tₙ := fun c => StableHlo.held (c : Thread nD τ) (Pipeline.ucRefs τ sig) (V4 m (outs m) c))
    (hch := fun c => ⟨.rfl, .rfl, .rfl, .rfl, sep_mono .rfl (by iintro ⟨-, H⟩; iexact H)⟩)
    (hinit := ?hinit) (QY := fun c s => ∀ b ∈ Pipeline.ucRefs τ sig, s.mem ((c : Thread nD τ).1, b) = V4 m (outs m) c b)
    (hfin := fun c s' => ?hfin) (hQ := fun _ h => h)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  case hfin =>
    iintro ⟨Hh, HSI⟩
    unfold StableHlo.held
    imodintro
    iapply (pointsTo_read_all (Pipeline.ucRefs τ sig) (fun b => (((c : Thread nD τ)).1, b)) (V4 m (outs m) c) s')
    isplitl [Hh] <;> iassumption

/-! ## The frame -/

/-- A memory that holds every unscoped buffer at the last valuation holds each argument array as launched: no host line
    writes an argument and no call may change one. -/
theorem args_kept (s : MemSt nD τ sig (Elt F))
    (h : ∀ c : Dev nD, ∀ b ∈ Pipeline.ucRefs τ sig, s.mem ((c : Thread nD τ).1, b) = V4 m (outs m) c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23) :=
  ⟨(h c _ (mem_uc main_arg0 (by decide))).trans (V4_main_arg0 m (outs m) c),
   (h c _ (mem_uc main_arg1 (by decide))).trans (V4_main_arg1 m (outs m) c),
   (h c _ (mem_uc main_arg2 (by decide))).trans (V4_main_arg2 m (outs m) c),
   (h c _ (mem_uc main_arg3 (by decide))).trans (V4_main_arg3 m (outs m) c),
   (h c _ (mem_uc main_arg4 (by decide))).trans (V4_main_arg4 m (outs m) c),
   (h c _ (mem_uc main_arg5 (by decide))).trans (V4_main_arg5 m (outs m) c),
   (h c _ (mem_uc main_arg6 (by decide))).trans (V4_main_arg6 m (outs m) c),
   (h c _ (mem_uc main_arg7 (by decide))).trans (V4_main_arg7 m (outs m) c),
   (h c _ (mem_uc main_arg8 (by decide))).trans (V4_main_arg8 m (outs m) c),
   (h c _ (mem_uc main_arg9 (by decide))).trans (V4_main_arg9 m (outs m) c),
   (h c _ (mem_uc main_arg10 (by decide))).trans (V4_main_arg10 m (outs m) c),
   (h c _ (mem_uc main_arg11 (by decide))).trans (V4_main_arg11 m (outs m) c),
   (h c _ (mem_uc main_arg12 (by decide))).trans (V4_main_arg12 m (outs m) c),
   (h c _ (mem_uc main_arg13 (by decide))).trans (V4_main_arg13 m (outs m) c),
   (h c _ (mem_uc main_arg14 (by decide))).trans (V4_main_arg14 m (outs m) c),
   (h c _ (mem_uc main_arg15 (by decide))).trans (V4_main_arg15 m (outs m) c),
   (h c _ (mem_uc main_arg16 (by decide))).trans (V4_main_arg16 m (outs m) c),
   (h c _ (mem_uc main_arg17 (by decide))).trans (V4_main_arg17 m (outs m) c),
   (h c _ (mem_uc main_arg18 (by decide))).trans (V4_main_arg18 m (outs m) c),
   (h c _ (mem_uc main_arg19 (by decide))).trans (V4_main_arg19 m (outs m) c),
   (h c _ (mem_uc main_arg20 (by decide))).trans (V4_main_arg20 m (outs m) c),
   (h c _ (mem_uc main_arg21 (by decide))).trans (V4_main_arg21 m (outs m) c),
   (h c _ (mem_uc main_arg22 (by decide))).trans (V4_main_arg22 m (outs m) c),
   (h c _ (mem_uc main_arg23 (by decide))).trans (V4_main_arg23 m (outs m) c)⟩

/-- THE FRAME, at any float instance: from any memory with zero counters every weakly fair execution of @main on the
    TensorCores terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => args_kept m r.2 h c) (run_all m ρ)

end Cert.KernelIdeal.Hand

end
-- ==== Proof.LibJoin8.lean ====
/- Eight equal pieces laid end to end.
   A vector of 8 · 2097152 entries made of eight vectors of 2097152 entries: entry `j` is entry `j % 2097152` of piece
   `j / 2097152`. The host's eight-operand concatenation along the one axis is that vector (each operand's span is the
   2097152 positions after the spans before it), and so is any array whose consecutive blocks are the pieces' blocks. -/
import Idealize.ShloMosaic.Lib.Pipeline.Value
import Idealize.ShloMosaic.Lib.ValueIdx

noncomputable section

namespace Cert.LibJoin8

open Idealize.ShloMosaic Idealize.ShloMosaic.ValueIdx

/-- One piece's shape, -/
abbrev Piece : Shape := ⟨1, ![2097152]⟩
/-- and the joined vector's. -/
abbrev Whole : Shape := ⟨1, ![16777216]⟩

/-- Eight pieces laid end to end: entry `j` is piece `j / 2097152` at `j % 2097152`. (The piece's number is reduced mod 8
    so that it is a `Fin 8` without a side proof about `j`; for `j` below 8 · 2097152 the reduction changes nothing.) -/
def joined {α : Type} (f : Fin 8 → (Piece.Idx → α)) : Whole.Idx → α := fun j =>
  f ⟨(j 0).val / 2097152 % 8, Nat.mod_lt _ (by decide)⟩ (ix1 ⟨(j 0).val % 2097152, Nat.mod_lt _ (by decide)⟩)

/-- The eight pieces as a family, from their names. -/
def fam {β : Type} (x0 x1 x2 x3 x4 x5 x6 x7 : β) : Fin 8 → β
  | ⟨0, _⟩ => x0 | ⟨1, _⟩ => x1 | ⟨2, _⟩ => x2 | ⟨3, _⟩ => x3 | ⟨4, _⟩ => x4 | ⟨5, _⟩ => x5 | ⟨6, _⟩ => x6 | ⟨7, _⟩ => x7

/-- The joined vector at position `k · 2097152 + r` (`k < 8`, `r < 2097152`) is piece `k` at `r`. -/
theorem joined_at {α : Type} (f : Fin 8 → (Piece.Idx → α)) (j : Whole.Idx) (k : Fin 8) (i : Piece.Idx)
    (hk : (j 0).val / 2097152 = k.val) (hi : (i 0).val = (j 0).val % 2097152) : joined f j = f k i := by
  unfold joined
  have e1 : (⟨(j 0).val / 2097152 % 8, Nat.mod_lt _ (by decide)⟩ : Fin 8) = k :=
    Fin.ext (by show (j 0).val / 2097152 % 8 = k.val; have := k.isLt; omega)
  have e2 : (ix1 ⟨(j 0).val % 2097152, Nat.mod_lt _ (by decide)⟩ : Piece.Idx) = i :=
    funext fun a => Fin.ext (by match a with | ⟨0, _⟩ => exact hi.symm)
  rw [e1, e2]

/-- The host's concatenation of eight such pieces along their one axis is the joined vector. -/
theorem concatenate_eq_joined {α : Type} (x0 x1 x2 x3 x4 x5 x6 x7 : Piece.Idx → α)
    (h : Shape.Concatenates [Piece, Piece, Piece, Piece, Piece, Piece, Piece, Piece] Whole 0) :
    concatenate Whole 0 [⟨Piece, x0⟩, ⟨Piece, x1⟩, ⟨Piece, x2⟩, ⟨Piece, x3⟩, ⟨Piece, x4⟩, ⟨Piece, x5⟩, ⟨Piece, x6⟩, ⟨Piece, x7⟩] h
      = joined (fam x0 x1 x2 x3 x4 x5 x6 x7) := by
  funext j
  have hj : (j 0).val < 16777216 := (j 0).isLt
  let k : Fin 8 := ⟨(j 0).val / 2097152, by omega⟩
  let i : Piece.Idx := ix1 ⟨(j 0).val % 2097152, Nat.mod_lt _ (by decide)⟩
  rw [joined_at (fam x0 x1 x2 x3 x4 x5 x6 x7) j k i rfl rfl]
  exact concatenate_ofFn_apply (t := Whole) (s₁ := Piece) 0 (fam x0 x1 x2 x3 x4 x5 x6 x7) h rfl 2097152 rfl j k rfl i rfl
    (fun b hb => absurd (Fin.ext (by have hb1 : b.val < 1 := b.isLt; show b.val = 0; omega)) hb)

end Cert.LibJoin8

end
-- ==== Proof.KI.Value0.lean ====
/- Region 0's result array after the run, as one function of the arrays the region is entered with: the eight tables laid
   end to end. Point `t` writes back block `t` of the result, and what it writes is the staged block of table `t / 8`,
   which is block `t % 8` of that table: entry `t · 262144 + y` of the result is entry `(t % 8) · 262144 + y` of table
   `t / 8`, the entry the joined vector has there. The 64 blocks tile the result. -/
import proofs.«412061_j12472585028199_1_alg».proof.Proof.KI.Body0
import proofs.«412061_j12472585028199_1_alg».proof.Proof.LibJoin8

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

/-- The eight tables as the region finds them. -/
def tables0 (c : Dev nD) : Fin 8 → (LibJoin8.Piece.Idx → Elt F .i32) :=
  LibJoin8.fam (V c main_arg0) (V c main_arg1) (V c main_arg2) (V c main_arg3) (V c main_arg4) (V c main_arg5) (V c main_arg6) (V c main_arg7)

/-- The printed index maps, decided over the grid: the output's block at point `t` is block `t`; table `k`'s is block
    `t % 8` while `t / 8 = k` and block 0 otherwise. -/
theorem idx0 : ∀ t : Fin cfg0.N, win0_8.index t (0 : Fin 1) = t.val
    ∧ win0_0.index t (0 : Fin 1) = (if t.val / 8 = 0 then t.val % 8 else 0)
    ∧ win0_1.index t (0 : Fin 1) = (if t.val / 8 = 1 then t.val % 8 else 0)
    ∧ win0_2.index t (0 : Fin 1) = (if t.val / 8 = 2 then t.val % 8 else 0)
    ∧ win0_3.index t (0 : Fin 1) = (if t.val / 8 = 3 then t.val % 8 else 0)
    ∧ win0_4.index t (0 : Fin 1) = (if t.val / 8 = 4 then t.val % 8 else 0)
    ∧ win0_5.index t (0 : Fin 1) = (if t.val / 8 = 5 then t.val % 8 else 0)
    ∧ win0_6.index t (0 : Fin 1) = (if t.val / 8 = 6 then t.val % 8 else 0)
    ∧ win0_7.index t (0 : Fin 1) = (if t.val / 8 = 7 then t.val % 8 else 0) :=
  (by decide +kernel : ∀ t : Fin grid0.N, _)

/-- What point `t` writes back is block `t` of the eight tables laid end to end. -/
theorem wrote0 (c : Dev nD) (t : Fin cfg0.N) :
    (dat0 V c).flushed 8 t = ((cfg0.win 8).blk t).view.read (Elt F) (LibJoin8.joined (tables0 V c)) := by
  show (cfg0.win 8).cut (grid0.coords t) ((dat0 V c).after 8 t) = _
  rw [after0_8]
  obtain ⟨e8, e0, e1, e2, e3, e4, e5, e6, e7⟩ := idx0 t
  have ht : t.val < 64 := lt_of_lt_of_eq t.isLt (show cfg0.N = 64 from N_0)
  funext y
  have hy : (y 0).val < 262144 := (y 0).isLt
  show tab0 V c t (src0 t) y = LibJoin8.joined (tables0 V c) (((cfg0.win 8).blk t).view.emb y)
  have hE : (((cfg0.win 8).blk t).view.emb y 0).val = win0_8.index t (0 : Fin 1) * 262144 + 1 * (y 0).val := rfl
  have hs : (src0 t).val = t.val / 8 := rfl
  match hk : src0 t with
  | 0 =>
    have h8 : t.val / 8 = 0 := hs.symm.trans (congrArg Fin.val hk)
    rw [if_pos h8] at e0
    have hi : (((cfg0.win 0).blk t).view.emb y 0).val = win0_0.index t (0 : Fin 1) * 262144 + 1 * (y 0).val := rfl
    refine Eq.trans ?_ (LibJoin8.joined_at (tables0 V c) (((cfg0.win 8).blk t).view.emb y) 0 (((cfg0.win 0).blk t).view.emb y)
      (by show _ = 0; omega) (by omega)).symm
    rfl
  | 1 =>
    have h8 : t.val / 8 = 1 := hs.symm.trans (congrArg Fin.val hk)
    rw [if_pos h8] at e1
    have hi : (((cfg0.win 1).blk t).view.emb y 0).val = win0_1.index t (0 : Fin 1) * 262144 + 1 * (y 0).val := rfl
    refine Eq.trans ?_ (LibJoin8.joined_at (tables0 V c) (((cfg0.win 8).blk t).view.emb y) 1 (((cfg0.win 1).blk t).view.emb y)
      (by show _ = 1; omega) (by omega)).symm
    rfl
  | 2 =>
    have h8 : t.val / 8 = 2 := hs.symm.trans (congrArg Fin.val hk)
    rw [if_pos h8] at e2
    have hi : (((cfg0.win 2).blk t).view.emb y 0).val = win0_2.index t (0 : Fin 1) * 262144 + 1 * (y 0).val := rfl
    refine Eq.trans ?_ (LibJoin8.joined_at (tables0 V c) (((cfg0.win 8).blk t).view.emb y) 2 (((cfg0.win 2).blk t).view.emb y)
      (by show _ = 2; omega) (by omega)).symm
    rfl
  | 3 =>
    have h8 : t.val / 8 = 3 := hs.symm.trans (congrArg Fin.val hk)
    rw [if_pos h8] at e3
    have hi : (((cfg0.win 3).blk t).view.emb y 0).val = win0_3.index t (0 : Fin 1) * 262144 + 1 * (y 0).val := rfl
    refine Eq.trans ?_ (LibJoin8.joined_at (tables0 V c) (((cfg0.win 8).blk t).view.emb y) 3 (((cfg0.win 3).blk t).view.emb y)
      (by show _ = 3; omega) (by omega)).symm
    rfl
  | 4 =>
    have h8 : t.val / 8 = 4 := hs.symm.trans (congrArg Fin.val hk)
    rw [if_pos h8] at e4
    have hi : (((cfg0.win 4).blk t).view.emb y 0).val = win0_4.index t (0 : Fin 1) * 262144 + 1 * (y 0).val := rfl
    refine Eq.trans ?_ (LibJoin8.joined_at (tables0 V c) (((cfg0.win 8).blk t).view.emb y) 4 (((cfg0.win 4).blk t).view.emb y)
      (by show _ = 4; omega) (by omega)).symm
    rfl
  | 5 =>
    have h8 : t.val / 8 = 5 := hs.symm.trans (congrArg Fin.val hk)
    rw [if_pos h8] at e5
    have hi : (((cfg0.win 5).blk t).view.emb y 0).val = win0_5.index t (0 : Fin 1) * 262144 + 1 * (y 0).val := rfl
    refine Eq.trans ?_ (LibJoin8.joined_at (tables0 V c) (((cfg0.win 8).blk t).view.emb y) 5 (((cfg0.win 5).blk t).view.emb y)
      (by show _ = 5; omega) (by omega)).symm
    rfl
  | 6 =>
    have h8 : t.val / 8 = 6 := hs.symm.trans (congrArg Fin.val hk)
    rw [if_pos h8] at e6
    have hi : (((cfg0.win 6).blk t).view.emb y 0).val = win0_6.index t (0 : Fin 1) * 262144 + 1 * (y 0).val := rfl
    refine Eq.trans ?_ (LibJoin8.joined_at (tables0 V c) (((cfg0.win 8).blk t).view.emb y) 6 (((cfg0.win 6).blk t).view.emb y)
      (by show _ = 6; omega) (by omega)).symm
    rfl
  | 7 =>
    have h8 : t.val / 8 = 7 := hs.symm.trans (congrArg Fin.val hk)
    rw [if_pos h8] at e7
    have hi : (((cfg0.win 7).blk t).view.emb y 0).val = win0_7.index t (0 : Fin 1) * 262144 + 1 * (y 0).val := rfl
    refine Eq.trans ?_ (LibJoin8.joined_at (tables0 V c) (((cfg0.win 8).blk t).view.emb y) 7 (((cfg0.win 7).blk t).view.emb y)
      (by show _ = 7; omega) (by omega)).symm
    rfl
  | ⟨_ + 8, h⟩ => exact absurd h (Nat.not_lt.2 (Nat.le_add_left _ _))

/-- An index of the result is in point `t`'s block iff it lies in the 262144 positions from `t · 262144`. -/
theorem mem_out0 (t : Fin cfg0.N) (i : S16777216.Idx) :
    i ∈ ((cfg0.win 8).blk t).view.set ↔ ∀ a : Fin 1, win0_8.index t a * S262144.size a ≤ (i a).val ∧ (i a).val < win0_8.index t a * S262144.size a + S262144.size a := by
  show i ∈ ((View.whole main_v0).slice (win0_8.rect t)).set ↔ _
  rw [View.set_slice_whole, Rect.mem_set_unit]
  exact Iff.rfl

/-- Every index of the result is in some point's block: the block of point `i / 262144`. -/
theorem covers0 (i : S16777216.Idx) : ∃ t : Fin cfg0.N, (cfg0.win 8).flush t = true ∧ i ∈ ((cfg0.win 8).blk t).view.set := by
  have hi : (i 0).val < 16777216 := (i 0).isLt
  have hN : (i 0).val / 262144 < cfg0.N := lt_of_lt_of_eq (show (i 0).val / 262144 < 64 by omega) (show cfg0.N = 64 from N_0).symm
  refine ⟨⟨(i 0).val / 262144, hN⟩, flush0_8 _, ?_⟩
  rw [mem_out0]
  intro a
  have e8 : win0_8.index ⟨(i 0).val / 262144, hN⟩ (0 : Fin 1) = (i 0).val / 262144 := (idx0 ⟨(i 0).val / 262144, hN⟩).1
  match a with
  | ⟨0, _⟩ =>
    show win0_8.index ⟨(i 0).val / 262144, hN⟩ (0 : Fin 1) * 262144 ≤ (i 0).val ∧ (i 0).val < win0_8.index ⟨(i 0).val / 262144, hN⟩ (0 : Fin 1) * 262144 + 262144
    omega

/-- THE RESULT ARRAY after the run: the eight tables, as the region finds them, laid end to end. -/
theorem result0 (c : Dev nD) : (dat0 V c).arrAt 8 cfg0.N = LibJoin8.joined (tables0 V c) :=
  (dat0 V c).arrAt_eq_of_cover 8 (LibJoin8.joined (tables0 V c)) (fun t _ => wrote0 V c t) covers0

end Cert.KernelIdeal.Hand

end
-- ==== Proof.KI.Ends.lean ====
/- The three results of the idealized kernel program, read off the last valuation, as functions of the launch memory:
   the first call's array is the eight index tables laid end to end, the second's the eight weight tables, and the host
   lines after the calls leave the eight offset vectors, each without its last entry and moved up by the number of
   indices before its table, followed by the total count. -/
import proofs.«412061_j12472585028199_1_alg».proof.Proof.KI.Run
import proofs.«412061_j12472585028199_1_alg».proof.Proof.KI.Value0
import proofs.«412061_j12472585028199_1_alg».proof.Proof.KI.Value1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]

variable (m : (ℓ : Loc nD τ sig) → Buf (Elt F) ℓ)

/-- The index tables of the launch memory laid end to end. -/
def outIndices (c : Dev nD) : Buf (Elt F) ((c.tc : Thread nD τ).loc main_v0) := LibJoin8.joined (LibJoin8.fam (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- The weight tables of the launch memory laid end to end. -/
def outWeights (c : Dev nD) : Buf (Elt F) ((c.tc : Thread nD τ).loc main_v1) := LibJoin8.joined (LibJoin8.fam (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)))

/-- The offset vectors of the launch memory, each without its last entry and moved up by the number of indices before its
    table, joined, with the total count appended. -/
def outOffsets (c : Dev nD) : Buf (Elt F) ((c.tc : Thread nD τ).loc main_v26) := concatenate S65537 0 [⟨S8192, addi (extractStridedSlice S8192 ![0] (m ((c.tc : Thread nD τ).loc main_arg8)) slices_S8193_S8192_0) (broadcastInDim S8192 ![] bcast_S_S8192 (constantI S_ 32 0#32))⟩, ⟨S8192, addi (extractStridedSlice S8192 ![0] (m ((c.tc : Thread nD τ).loc main_arg9)) slices_S8193_S8192_0) (broadcastInDim S8192 ![] bcast_S_S8192 (constantI S_ 32 2097152#32))⟩, ⟨S8192, addi (extractStridedSlice S8192 ![0] (m ((c.tc : Thread nD τ).loc main_arg10)) slices_S8193_S8192_0) (broadcastInDim S8192 ![] bcast_S_S8192 (constantI S_ 32 4194304#32))⟩, ⟨S8192, addi (extractStridedSlice S8192 ![0] (m ((c.tc : Thread nD τ).loc main_arg11)) slices_S8193_S8192_0) (broadcastInDim S8192 ![] bcast_S_S8192 (constantI S_ 32 6291456#32))⟩, ⟨S8192, addi (extractStridedSlice S8192 ![0] (m ((c.tc : Thread nD τ).loc main_arg12)) slices_S8193_S8192_0) (broadcastInDim S8192 ![] bcast_S_S8192 (constantI S_ 32 8388608#32))⟩, ⟨S8192, addi (extractStridedSlice S8192 ![0] (m ((c.tc : Thread nD τ).loc main_arg13)) slices_S8193_S8192_0) (broadcastInDim S8192 ![] bcast_S_S8192 (constantI S_ 32 10485760#32))⟩, ⟨S8192, addi (extractStridedSlice S8192 ![0] (m ((c.tc : Thread nD τ).loc main_arg14)) slices_S8193_S8192_0) (broadcastInDim S8192 ![] bcast_S_S8192 (constantI S_ 32 12582912#32))⟩, ⟨S8192, addi (extractStridedSlice S8192 ![0] (m ((c.tc : Thread nD τ).loc main_arg15)) slices_S8193_S8192_0) (broadcastInDim S8192 ![] bcast_S_S8192 (constantI S_ 32 14680064#32))⟩, ⟨S1, constantI S1 32 16777216#32⟩] concatenates_S8192_S8192_S8192_S8192_S8192_S8192_S8192_S8192_S1_S65537_d0

/-- Before the first call every argument array is as launched: the one host line before it writes a constant. -/
theorem U1_arg (c : Dev nD) (r : Ref sig .tc) (h : r ∉ hostOps0_W) : U1 m c r = m ((c.tc : Thread nD τ).loc r) :=
  V1_of m c r h

/-- The first call's result array at the end: the eight index tables of the launch memory laid end to end. -/
theorem end_indices (c : Dev nD) : V4 m (outs m) c main_v0 = outIndices m c := by
  unfold outIndices
  refine (V4_of m (outs m) c main_v0 (by decide)).trans ((V3_of m (outs m) c main_v0 (by decide)).trans ?_)
  refine (X2_result m c).trans ((result0 (U1 m) c).trans ?_)
  unfold tables0
  rw [U1_arg m c main_arg0 (by decide), U1_arg m c main_arg1 (by decide), U1_arg m c main_arg2 (by decide), U1_arg m c main_arg3 (by decide), U1_arg m c main_arg4 (by decide), U1_arg m c main_arg5 (by decide), U1_arg m c main_arg6 (by decide), U1_arg m c main_arg7 (by decide)]

/-- The second call's result array at the end: the eight weight tables laid end to end. -/
theorem end_weights (c : Dev nD) : V4 m (outs m) c main_v1 = outWeights m c := by
  unfold outWeights
  refine (V4_of m (outs m) c main_v1 (by decide)).trans ?_
  refine (U3_result m c).trans ((result1 (U2 m) c).trans ?_)
  unfold tables1
  rw [show U2 m c main_arg16 = m ((c.tc : Thread nD τ).loc main_arg16) from (V2_of m (outs m) c main_arg16 (by decide)).trans (V1_of m c main_arg16 (by decide)),
    show U2 m c main_arg17 = m ((c.tc : Thread nD τ).loc main_arg17) from (V2_of m (outs m) c main_arg17 (by decide)).trans (V1_of m c main_arg17 (by decide)),
    show U2 m c main_arg18 = m ((c.tc : Thread nD τ).loc main_arg18) from (V2_of m (outs m) c main_arg18 (by decide)).trans (V1_of m c main_arg18 (by decide)),
    show U2 m c main_arg19 = m ((c.tc : Thread nD τ).loc main_arg19) from (V2_of m (outs m) c main_arg19 (by decide)).trans (V1_of m c main_arg19 (by decide)),
    show U2 m c main_arg20 = m ((c.tc : Thread nD τ).loc main_arg20) from (V2_of m (outs m) c main_arg20 (by decide)).trans (V1_of m c main_arg20 (by decide)),
    show U2 m c main_arg21 = m ((c.tc : Thread nD τ).loc main_arg21) from (V2_of m (outs m) c main_arg21 (by decide)).trans (V1_of m c main_arg21 (by decide)),
    show U2 m c main_arg22 = m ((c.tc : Thread nD τ).loc main_arg22) from (V2_of m (outs m) c main_arg22 (by decide)).trans (V1_of m c main_arg22 (by decide)),
    show U2 m c main_arg23 = m ((c.tc : Thread nD τ).loc main_arg23) from (V2_of m (outs m) c main_arg23 (by decide)).trans (V1_of m c main_arg23 (by decide))]

/-- The constant the one host line before the calls writes: the total number of indices. -/
theorem total_const (c : Dev nD) : V1 m c main_c = constantI S1 32 16777216#32 := by
  show StableHlo.after hostOps0 (V0 m c) (Proc.devRef .tc main_c) = _
  after_results_simp <;> rfl

/-- The host lines after the calls, read over the valuation they start from. -/
theorem end_offsets_over (c : Dev nD) : V4 m (outs m) c main_v26 = concatenate S65537 0 [⟨S8192, addi (extractStridedSlice S8192 ![0] (V3 m (outs m) c main_arg8) slices_S8193_S8192_0) (broadcastInDim S8192 ![] bcast_S_S8192 (constantI S_ 32 0#32))⟩, ⟨S8192, addi (extractStridedSlice S8192 ![0] (V3 m (outs m) c main_arg9) slices_S8193_S8192_0) (broadcastInDim S8192 ![] bcast_S_S8192 (constantI S_ 32 2097152#32))⟩, ⟨S8192, addi (extractStridedSlice S8192 ![0] (V3 m (outs m) c main_arg10) slices_S8193_S8192_0) (broadcastInDim S8192 ![] bcast_S_S8192 (constantI S_ 32 4194304#32))⟩, ⟨S8192, addi (extractStridedSlice S8192 ![0] (V3 m (outs m) c main_arg11) slices_S8193_S8192_0) (broadcastInDim S8192 ![] bcast_S_S8192 (constantI S_ 32 6291456#32))⟩, ⟨S8192, addi (extractStridedSlice S8192 ![0] (V3 m (outs m) c main_arg12) slices_S8193_S8192_0) (broadcastInDim S8192 ![] bcast_S_S8192 (constantI S_ 32 8388608#32))⟩, ⟨S8192, addi (extractStridedSlice S8192 ![0] (V3 m (outs m) c main_arg13) slices_S8193_S8192_0) (broadcastInDim S8192 ![] bcast_S_S8192 (constantI S_ 32 10485760#32))⟩, ⟨S8192, addi (extractStridedSlice S8192 ![0] (V3 m (outs m) c main_arg14) slices_S8193_S8192_0) (broadcastInDim S8192 ![] bcast_S_S8192 (constantI S_ 32 12582912#32))⟩, ⟨S8192, addi (extractStridedSlice S8192 ![0] (V3 m (outs m) c main_arg15) slices_S8193_S8192_0) (broadcastInDim S8192 ![] bcast_S_S8192 (constantI S_ 32 14680064#32))⟩, ⟨S1, V3 m (outs m) c main_c⟩] concatenates_S8192_S8192_S8192_S8192_S8192_S8192_S8192_S8192_S1_S65537_d0 := by
  show StableHlo.after hostOps2 (V3 m (outs m) c) (Proc.devRef .tc main_v26) = _
  after_results_simp <;> rfl

/-- The offsets at the end: what the host lines after the calls compute from the launch memory's offset vectors and the
    constant the first host line wrote. -/
theorem end_offsets (c : Dev nD) : V4 m (outs m) c main_v26 = outOffsets m c := by
  unfold outOffsets
  rw [end_offsets_over,
    show V3 m (outs m) c main_arg8 = m ((c.tc : Thread nD τ).loc main_arg8) from (V3_of m (outs m) c main_arg8 (by decide)).trans ((V2_of m (outs m) c main_arg8 (by decide)).trans (V1_of m c main_arg8 (by decide))),
    show V3 m (outs m) c main_arg9 = m ((c.tc : Thread nD τ).loc main_arg9) from (V3_of m (outs m) c main_arg9 (by decide)).trans ((V2_of m (outs m) c main_arg9 (by decide)).trans (V1_of m c main_arg9 (by decide))),
    show V3 m (outs m) c main_arg10 = m ((c.tc : Thread nD τ).loc main_arg10) from (V3_of m (outs m) c main_arg10 (by decide)).trans ((V2_of m (outs m) c main_arg10 (by decide)).trans (V1_of m c main_arg10 (by decide))),
    show V3 m (outs m) c main_arg11 = m ((c.tc : Thread nD τ).loc main_arg11) from (V3_of m (outs m) c main_arg11 (by decide)).trans ((V2_of m (outs m) c main_arg11 (by decide)).trans (V1_of m c main_arg11 (by decide))),
    show V3 m (outs m) c main_arg12 = m ((c.tc : Thread nD τ).loc main_arg12) from (V3_of m (outs m) c main_arg12 (by decide)).trans ((V2_of m (outs m) c main_arg12 (by decide)).trans (V1_of m c main_arg12 (by decide))),
    show V3 m (outs m) c main_arg13 = m ((c.tc : Thread nD τ).loc main_arg13) from (V3_of m (outs m) c main_arg13 (by decide)).trans ((V2_of m (outs m) c main_arg13 (by decide)).trans (V1_of m c main_arg13 (by decide))),
    show V3 m (outs m) c main_arg14 = m ((c.tc : Thread nD τ).loc main_arg14) from (V3_of m (outs m) c main_arg14 (by decide)).trans ((V2_of m (outs m) c main_arg14 (by decide)).trans (V1_of m c main_arg14 (by decide))),
    show V3 m (outs m) c main_arg15 = m ((c.tc : Thread nD τ).loc main_arg15) from (V3_of m (outs m) c main_arg15 (by decide)).trans ((V2_of m (outs m) c main_arg15 (by decide)).trans (V1_of m c main_arg15 (by decide))),
    show V3 m (outs m) c main_c = constantI S1 32 16777216#32 from (V3_of m (outs m) c main_c (by decide)).trans ((V2_of m (outs m) c main_c (by decide)).trans (total_const m c))]

end Cert.KernelIdeal.Hand

end
-- ==== Proof.lean ====
/- A flat concatenation of eight index tables and of eight weight tables by two grid-pipelined copy kernels, and the
   eight offset vectors rebased by the running index count and joined, against the host's concatenations.

   Each kernel runs on an 8 × 8 grid; at point `t = 8k + j` it copies block `j` of table `k` (262144 entries) to block
   `t` of its result, so after the 64 points the result is the eight tables laid end to end: entry `n` of the result is
   entry `n % 2097152` of table `n / 2097152`. The host's eight-operand concatenation is the same vector. The offsets are
   computed by the same host operations in both programs (drop the last entry, add the count of indices before the table,
   join, append the total count), so the two results are one term of the launch memory. No arithmetic on floats occurs:
   the weights are moved, never computed with, so nothing depends on the inputs being finite.

   Frames: each program runs to the end without a fault and leaves its argument arrays as launched — the two kernel
   programs by the run of @main as host lines and pipelined calls, the reference by its straight-line host run.
   The idealization rewrote nothing, so its preservation claim is trivially true. -/
import proofs.«412061_j12472585028199_1_alg».proof.Defs
import proofs.«412061_j12472585028199_1_alg».proof.Proof.Gen.Kernel
import proofs.«412061_j12472585028199_1_alg».proof.Proof.Gen.KernelIdeal
import proofs.«412061_j12472585028199_1_alg».proof.Proof.Gen.ReferenceIdeal
import proofs.«412061_j12472585028199_1_alg».proof.Proof.Gen.Pre_finite_inputs
import proofs.«412061_j12472585028199_1_alg».proof.Proof.Gen.ReferenceIdeal.Run
import proofs.«412061_j12472585028199_1_alg».proof.Proof.K.Run
import proofs.«412061_j12472585028199_1_alg».proof.Proof.KI.Ends
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the index tables laid end to end, the rebased offsets joined, and the weight tables laid end to
    end: the kernel's program by what its two pipelines write back and its host lines compute, the reference by its host
    concatenations, which are the same vectors once the two launch memories agree on the arguments. -/
theorem algebraic : Cert.algebraic_KernelIdeal_ReferenceIdeal := by
  intro m ρ m' ρ' _ hagree
  refine ⟨Cert.KernelIdeal.Hand.outIndices m, Cert.KernelIdeal.Hand.outOffsets m, Cert.KernelIdeal.Hand.outWeights m, ?_, ?_⟩
  · exact (θ_run Cert.KernelIdeal.defs _ _).mono (fun r h c =>
      ⟨(h c _ (Cert.KernelIdeal.Hand.mem_uc Cert.KernelIdeal.main_v0 (by decide))).trans (Cert.KernelIdeal.Hand.end_indices m c),
       (h c _ (Cert.KernelIdeal.Hand.mem_uc Cert.KernelIdeal.main_v26 (by decide))).trans (Cert.KernelIdeal.Hand.end_offsets m c),
       (h c _ (Cert.KernelIdeal.Hand.mem_uc Cert.KernelIdeal.main_v1 (by decide))).trans (Cert.KernelIdeal.Hand.end_weights m c),
       Cert.KernelIdeal.Hand.args_kept m r.2 h c⟩) (Cert.KernelIdeal.Hand.run_all m ρ)
  · refine (θ_run Cert.ReferenceIdeal.defs _ _).mono (fun r h c => ?_) (Cert.ReferenceIdeal.Value.run (F := Ideal) m' ρ')
    obtain ⟨h0, h25, h26, hargs⟩ := h c
    obtain ⟨a0, a1, a2, a3, a4, a5, a6, a7, a8, a9, a10, a11, a12, a13, a14, a15, a16, a17, a18, a19, a20, a21, a22, a23⟩ := hagree c
    rw [a0, a1, a2, a3, a4, a5, a6, a7] at h0
    rw [a8, a9, a10, a11, a12, a13, a14, a15] at h25
    rw [a16, a17, a18, a19, a20, a21, a22, a23] at h26
    exact ⟨h0.trans (Cert.LibJoin8.concatenate_eq_joined _ _ _ _ _ _ _ _ _), h25,
      h26.trans (Cert.LibJoin8.concatenate_eq_joined _ _ _ _ _ _ _ _ _), hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
